-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x256 : Shape := ⟨2, ![65536, 256]⟩
abbrev S256x256 : Shape := ⟨2, ![256, 256]⟩
abbrev S256 : Shape := ⟨1, ![256]⟩
abbrev S_ : Shape := ⟨0, ![]⟩

class Facts : Prop where
  bcast_S_S65536x256 : S_.BroadcastsInDim S65536x256 (![] : Fin 0 → Fin S65536x256.rank)
  reducesTo_S65536x256_S_d0_1 : S65536x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn {F : FTy → Type} [FloatOps F] (main_arg0 : FVec F S65536x256 .f32) (main_arg1 : FVec F S256x256 .f32) (main_arg2 : FVec F S256 .f32) : IVec S_ 1 :=
  let main_v0 : FVec F S65536x256 .f32 := Host.absf main_arg0
  let main_cst : FVec F S_ .f32 := constant S_ .f32 0x7F800000#32
  let main_v1 : FVec F S65536x256 .f32 := broadcastInDim S65536x256 ![] bcast_S_S65536x256 main_cst
  let main_v2 : IVec S65536x256 1 := cmpf .olt main_v0 main_v1
  let main_c : IVec S_ 1 := constantI S_ 1 1#1
  let main_v3 : IVec S_ 1 := (fun x v => Host.reduce IntOp.andi x v reducesTo_S65536x256_S_d0_1 h_S_) main_v2 main_c
  let main_v4 : FVec F S256x256 .f32 := Host.absf main_arg1
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  main_v13
-- ==== Kernel.lean ====
abbrev S65536x256 : Shape := ⟨2, ![65536, 256]⟩
abbrev S256x256 : Shape := ⟨2, ![256, 256]⟩
abbrev S256 : Shape := ⟨1, ![256]⟩
abbrev S1x256 : Shape := ⟨2, ![1, 256]⟩
abbrev S2048x256 : Shape := ⟨2, ![2048, 256]⟩
abbrev S2048 : Shape := ⟨1, ![2048]⟩
abbrev S2048x1 : Shape := ⟨2, ![2048, 1]⟩

abbrev nBuf : Space → Nat
  | .hbm => 5
  | .vmem => 6
  | .smem => 0
  | _ => 0

abbrev bufTy : (tb : Table) → Fin (tcTables nBuf tb) → BufTy
  | .hbm, ⟨0, _⟩ => ⟨S65536x256, .f32⟩
  | .hbm, ⟨1, _⟩ => ⟨S256x256, .f32⟩
  | .hbm, ⟨2, _⟩ => ⟨S256, .f32⟩
  | .hbm, ⟨3, _⟩ => ⟨S1x256, .f32⟩
  | .hbm, ⟨4, _⟩ => ⟨S65536x256, .f32⟩
  | .local _ .vmem, ⟨0, _⟩ => ⟨S2048x256, .f32⟩
  | .local _ .vmem, ⟨1, _⟩ => ⟨S2048x256, .f32⟩
  | .local _ .vmem, ⟨2, _⟩ => ⟨S256x256, .f32⟩
  | .local _ .vmem, ⟨3, _⟩ => ⟨S1x256, .f32⟩
  | .local _ .vmem, ⟨4, _⟩ => ⟨S2048x256, .f32⟩
  | .local _ .vmem, ⟨5, _⟩ => ⟨S2048x256, .f32⟩
  | _, _ => ⟨S65536x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S256_S1x256 : S256.ShapeCasts S1x256
  inb_S2048x256_S2048x256_0_0 : ∀ a, (![0, 0] : Fin 2 → Nat) a + S2048x256.size a ≤ S2048x256.size a
  h_S2048x256 : 0 < S2048x256.numel
  inb_S256x256_S256x256_0_0 : ∀ a, (![0, 0] : Fin 2 → Nat) a + S256x256.size a ≤ S256x256.size a
  h_S256x256 : 0 < S256x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  reduces_S2048x256_S2048 : S2048x256.Reduces [1] S2048
  shapeCasts_S2048_S2048x1 : S2048.ShapeCasts S2048x1
  reduces_S256x256_S256 : S256x256.Reduces [1] S256
  bitsLt_bf16_f32 : FTy.bits .bf16 < FTy.bits .f32
  broadcasts_S1x256_S2048x256 : S1x256.Broadcasts S2048x256
  broadcasts_S2048x1_S2048x256 : S2048x1.Broadcasts S2048x256
  dot_S2048x256_S256x256_S2048x256_1_1_0_0_n_n_wf : DotDims.WF S2048x256 S256x256 S2048x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S65536x256.size a
  hwx0_0 : ∀ i : grid0.Coords, EltTy.bits .f32 = 32 ∨ (Rect.block (s := S65536x256) S2048x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x256.size a ≤ S65536x256.size a
  hwx0_3 : ∀ i : grid0.Coords, EltTy.bits .f32 = 32 ∨ (Rect.block (s := S65536x256) S2048x256.size (cc0_transform_3 i) (hinb0_3 i)).WholeWords (EltTy.packing .f32)

variable [Facts₀]

def dot_S2048x256_S256x256_S2048x256_1_1_0_0_n_n : DotDims S2048x256 S256x256 S2048x256 where
  lhsContracting := [1]
  rhsContracting := [1]
  lhsNonContracting := [0]
  rhsNonContracting := [0]
  lhsBatch := []
  rhsBatch := []
  wf := dot_S2048x256_S256x256_S2048x256_1_1_0_0_n_n_wf

abbrev win0_0 : Pipeline.Window sig grid0 :=
  Pipeline.Window.ofSpec (Memref.whole main_arg0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S2048x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S65536x256 : Shape := ⟨2, ![65536, 256]⟩
abbrev S256x256 : Shape := ⟨2, ![256, 256]⟩
abbrev S256 : Shape := ⟨1, ![256]⟩
abbrev S_ : Shape := ⟨0, ![]⟩
abbrev S65536 : Shape := ⟨1, ![65536]⟩
abbrev S65536x1 : Shape := ⟨2, ![65536, 1]⟩
abbrev S1x256 : Shape := ⟨2, ![1, 256]⟩

abbrev nBuf : Space → Nat
  | .hbm => 31
  | .vmem => 0
  | .smem => 0
  | _ => 0

abbrev bufTy : (tb : Table) → Fin (tcTables nBuf tb) → BufTy
  | .hbm, ⟨0, _⟩ => ⟨S65536x256, .f32⟩
  | .hbm, ⟨1, _⟩ => ⟨S256x256, .f32⟩
  | .hbm, ⟨2, _⟩ => ⟨S256, .f32⟩
  | .hbm, ⟨3, _⟩ => ⟨S65536x256, .f32⟩
  | .hbm, ⟨4, _⟩ => ⟨S_, .f32⟩
  | .hbm, ⟨5, _⟩ => ⟨S65536, .f32⟩
  | .hbm, ⟨6, _⟩ => ⟨S65536x1, .f32⟩
  | .hbm, ⟨7, _⟩ => ⟨S65536x1, .f32⟩
  | .hbm, ⟨8, _⟩ => ⟨S256x256, .f32⟩
  | .hbm, ⟨9, _⟩ => ⟨S_, .f32⟩
  | .hbm, ⟨10, _⟩ => ⟨S256, .f32⟩
  | .hbm, ⟨11, _⟩ => ⟨S256, .f32⟩
  | .hbm, ⟨12, _⟩ => ⟨S1x256, .f32⟩
  | .hbm, ⟨13, _⟩ => ⟨S256x256, .f32⟩
  | .hbm, ⟨14, _⟩ => ⟨S65536x256, .f32⟩
  | .hbm, ⟨15, _⟩ => ⟨S1x256, .f32⟩
  | .hbm, ⟨16, _⟩ => ⟨S65536x256, .f32⟩
  | .hbm, ⟨17, _⟩ => ⟨S65536x256, .f32⟩
  | .hbm, ⟨18, _⟩ => ⟨S1x256, .f32⟩
  | .hbm, ⟨19, _⟩ => ⟨S65536x256, .f32⟩
  | .hbm, ⟨20, _⟩ => ⟨S65536x256, .f32⟩
  | .hbm, ⟨21, _⟩ => ⟨S65536x256, .f32⟩
  | .hbm, ⟨22, _⟩ => ⟨S65536x256, .f32⟩
  | .hbm, ⟨23, _⟩ => ⟨S65536x256, .f32⟩
  | .hbm, ⟨24, _⟩ => ⟨S65536x256, .f32⟩
  | .hbm, ⟨25, _⟩ => ⟨S_, .f32⟩
  | .hbm, ⟨26, _⟩ => ⟨S65536x256, .f32⟩
  | .hbm, ⟨27, _⟩ => ⟨S65536x256, .f32⟩
  | .hbm, ⟨28, _⟩ => ⟨S1x256, .f32⟩
  | .hbm, ⟨29, _⟩ => ⟨S65536x256, .f32⟩
  | .hbm, ⟨30, _⟩ => ⟨S65536x256, .f32⟩
  | _, _ => ⟨S65536x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst_1 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩

abbrev nD : Nat := 1
abbrev τ : Topo := Topo.v7x

variable {F : FTy → Type} [FloatOps F]

class Facts₀ : Prop where
  reducesTo_S65536x256_S65536_d1 : S65536x256.ReducesTo [1] S65536
  h_S_ : 0 < S_.numel
  bcast_S65536_S65536x1_0 : S65536.BroadcastsInDim S65536x1 (![0] : Fin 1 → Fin S65536x1.rank)
  reducesTo_S256x256_S256_d1 : S256x256.ReducesTo [1] S256
  bcast_S256_S1x256_1 : S256.BroadcastsInDim S1x256 (![1] : Fin 1 → Fin S1x256.rank)
  transposes_S256x256_S256x256_1_0 : S256x256.Transposes [1, 0] S256x256
  bcast_S1x256_S65536x256_0_1 : S1x256.BroadcastsInDim S65536x256 (![0, 1] : Fin 2 → Fin S65536x256.rank)
  bcast_S65536x1_S65536x256_0_1 : S65536x1.BroadcastsInDim S65536x256 (![0, 1] : Fin 2 → Fin S65536x256.rank)
  bcast_S_S65536x256 : S_.BroadcastsInDim S65536x256 (![] : Fin 0 → Fin S65536x256.rank)
  dot_S65536x256_S256x256_S65536x256_1_0_0_1_n_n_wf : DotDims.WF S65536x256 S256x256 S65536x256 [1] [0] [0] [1] [] []

variable [Facts₀]

def dot_S65536x256_S256x256_S65536x256_1_0_0_1_n_n : DotDims S65536x256 S256x256 S65536x256 where
  lhsContracting := [1]
  rhsContracting := [0]
  lhsNonContracting := [0]
  rhsNonContracting := [1]
  lhsBatch := []
  rhsBatch := []
  wf := dot_S65536x256_S256x256_S65536x256_1_0_0_1_n_n_wf

class Facts : Prop extends Facts₀ where

variable [Facts]
-- ==== Proof.Spec.lean ====
/-
  The function both programs compute, entry by entry, on the extended reals.

  For an input `x` of 65536 rows of 256 numbers, a weight matrix `W` of 256 rows of 256 numbers and a bias `b` of 256
  numbers, entry `(r, j)` of the result is

      max ( ((⟨x_r, W_j⟩ + b_j) − b_j) / (√⟨x_r, x_r⟩ · √⟨W_j, W_j⟩) , ε ) + b_j

  where `⟨u, v⟩ = Σ_k u_k · v_k` is the inner product of two rows and `ε` is the single precision number nearest 1e-10:
  the cosine of the angle between row `r` of `x` and row `j` of `W`, clamped below at `ε`, with the bias taken off before
  the division and put back after the clamp. The bias is added and subtracted exactly as written: on the extended reals
  `(s + β) − β` need not be `s` when a term is infinite, and nothing here uses that it is. An entry depends on the
  arguments only through the two rows and the one bias number, which is how `cell` is stated.
-/
import Idealize.ShloMosaic.Lib.ValueIdx
import Idealize.ShloMosaic.PureOps.Ideal.Laws

noncomputable section

open scoped BigOperators

namespace Cert.Cosine

open Idealize.ShloMosaic Idealize.ShloMosaic.ValueIdx

/-- The inner product of two rows of `K` numbers. -/
def dotRow {K : ℕ} (u v : Fin K → EReal) : EReal := ∑ k : Fin K, u k * v k

/-- The lower clamp `ε`, kept as its single precision word (both programs carry the same word). -/
abbrev eps : EReal := Ideal.ofBits .f32 0x2EDBE6FF#32

/-- One entry of the result from the two rows `u`, `v` it depends on and the bias number `β`: the cosine of the angle
    between `u` and `v`, clamped below at `ε`, the bias off before the division and back on after the clamp. -/
def cell {K : ℕ} (u v : Fin K → EReal) (β : EReal) : EReal :=
  max (Ideal.div (dotRow u v + β - β) (Ideal.sqrt (dotRow u u) * Ideal.sqrt (dotRow v v))) eps + β

/-- Row `r` of a two-axis array. -/
abbrev row {R K : ℕ} (a : (⟨2, ![R, K]⟩ : Shape).Idx → EReal) (r : Fin R) : Fin K → EReal := fun k => a (ix2 r k)

/-- The whole result array, as one function of the three argument arrays. -/
def G (x : (⟨2, ![65536, 256]⟩ : Shape).Idx → EReal) (W : (⟨2, ![256, 256]⟩ : Shape).Idx → EReal)
    (b : (⟨1, ![256]⟩ : Shape).Idx → EReal) : (⟨2, ![65536, 256]⟩ : Shape).Idx → EReal :=
  fun i => cell (row x (i 0)) (row W (i 1)) (b (ix1 (i 1)))

/-- The result at the entry of coordinates `(r, j)`. -/
theorem G_ix2 (x : (⟨2, ![65536, 256]⟩ : Shape).Idx → EReal) (W : (⟨2, ![256, 256]⟩ : Shape).Idx → EReal)
    (b : (⟨1, ![256]⟩ : Shape).Idx → EReal) (r : Fin 65536) (j : Fin 256) :
    G x W b (ix2 r j) = cell (row x r) (row W j) (b (ix1 j)) := rfl

end Cert.Cosine

end
-- ==== Proof.RefValue.lean ====
/-
  The reference program computes the clamped cosine `Cosine.G`.

  Read one operation at a time at the entry of coordinates `(r, j)`: the row lengths are square roots of sums over the
  second coordinate started from the zero word (which is the number zero); the product of `x` with the transposed weight
  matrix, `Σ_k x(r, k) · Wᵀ(k, j)`, is the inner product of row `r` of `x` with row `j` of `W`, since `Wᵀ(k, j) = W(j, k)`;
  the bias and the two lengths are spread over the result's rows and columns, so at `(r, j)` they are `b(j)`, the
  length of `x_r` and the length of `W_j`; the rest is entrywise.
-/
import proofs.«142080_j29291676959207_1_alg».proof.Proof.Gen.ReferenceIdeal.Read
import proofs.«142080_j29291676959207_1_alg».proof.Proof.Spec

noncomputable section

open scoped BigOperators

namespace Cert.Cosine.Ref

open Cert.ReferenceIdeal Cert.ReferenceIdeal.Gen Cert.ReferenceIdeal.Read
open Idealize.ShloMosaic Idealize.ShloMosaic.ValueIdx

variable (x : FVec Ideal S65536x256 .f32) (W : FVec Ideal S256x256 .f32) (b : FVec Ideal S256 .f32)

/-- The length of row `r` of `x`, kept as a one-column array: the square root of the row's sum of squares. -/
theorem xlen_apply (r : Fin 65536) (u : Fin 1) :
    val_main_v3 (F := Ideal) x (ix2 r u) = Ideal.sqrt (dotRow (row x r) (row x r)) := by
  rw [val_main_v3_apply, val_main_v2_apply, val_main_v1_apply]
  have hi : ∀ k : Fin 256, idx_main_v1 (idx_main_v2 (ix2 r u)) k = ix2 r k := fun k =>
    funext fun a => Fin.ext (by match a with | ⟨0, _⟩ => rfl | ⟨1, _⟩ => rfl)
  simp only [hi]
  show Ideal.sqrt (Ideal.ofBits .f32 0x00000000#32 + ∑ k : Fin 256, x (ix2 r k) * x (ix2 r k)) = _
  rw [Ideal.ofBits_zero_f32, zero_add]
  rfl

/-- The length of row `j` of `W`. -/
theorem wlen_apply (j : Fin 256) :
    val_main_v6 (F := Ideal) W (ix1 j) = Ideal.sqrt (dotRow (row W j) (row W j)) := by
  rw [val_main_v6_apply, val_main_v5_apply]
  have hi : ∀ k : Fin 256, idx_main_v5 (ix1 j) k = ix2 j k := fun k =>
    funext fun a => Fin.ext (by match a with | ⟨0, _⟩ => rfl | ⟨1, _⟩ => rfl)
  simp only [hi]
  show Ideal.sqrt (Ideal.ofBits .f32 0x00000000#32 + ∑ k : Fin 256, W (ix2 j k) * W (ix2 j k)) = _
  rw [Ideal.ofBits_zero_f32, zero_add]
  rfl

/-- The product with the transposed weights at `(r, j)` is the inner product of row `r` of `x` with row `j` of `W`. -/
theorem dot_apply (r : Fin 65536) (j : Fin 256) :
    val_main_v9 (F := Ideal) x W (ix2 r j) = dotRow (row x r) (row W j) := by
  rw [val_main_v9_apply]
  refine Finset.sum_congr rfl fun k _ => ?_
  rw [val_main_v8_apply]
  have hl : lidx_main_v9 (ix2 r j) k = ix2 r k :=
    funext fun a => Fin.ext (by match a with | ⟨0, _⟩ => rfl | ⟨1, _⟩ => rfl)
  have hr : idx_main_v8 (ridx_main_v9 (ix2 r j) k) = ix2 j k :=
    funext fun a => Fin.ext (by match a with | ⟨0, _⟩ => rfl | ⟨1, _⟩ => rfl)
  rw [hl, hr]

/-- The bias spread over the rows: at `(r, j)` it is `b(j)` (the three spreadings of the bias are one function). -/
theorem bias11_apply (r : Fin 65536) (j : Fin 256) : val_main_v11 (F := Ideal) b (ix2 r j) = b (ix1 j) := by
  rw [val_main_v11_apply, val_main_v10_apply]
  exact congrArg b (funext fun a => Fin.ext (by match a with | ⟨0, _⟩ => rfl))

theorem bias14_apply (r : Fin 65536) (j : Fin 256) : val_main_v14 (F := Ideal) b (ix2 r j) = b (ix1 j) := by
  rw [val_main_v14_apply, val_main_v13_apply]
  exact congrArg b (funext fun a => Fin.ext (by match a with | ⟨0, _⟩ => rfl))

theorem bias23_apply (r : Fin 65536) (j : Fin 256) : val_main_v23 (F := Ideal) b (ix2 r j) = b (ix1 j) := by
  rw [val_main_v23_apply, val_main_v22_apply]
  exact congrArg b (funext fun a => Fin.ext (by match a with | ⟨0, _⟩ => rfl))

/-- The two lengths spread over the result: at `(r, j)` the length of `x_r` and the length of `W_j`. -/
theorem xlen_spread_apply (r : Fin 65536) (j : Fin 256) :
    val_main_v16 (F := Ideal) x (ix2 r j) = Ideal.sqrt (dotRow (row x r) (row x r)) := by
  rw [val_main_v16_apply]
  have hi : idx_main_v16 (ix2 r j) = ix2 r (0 : Fin 1) :=
    funext fun a => Fin.ext (by match a with | ⟨0, _⟩ => rfl | ⟨1, _⟩ => rfl)
  rw [hi, xlen_apply]

theorem wlen_spread_apply (r : Fin 65536) (j : Fin 256) :
    val_main_v17 (F := Ideal) W (ix2 r j) = Ideal.sqrt (dotRow (row W j) (row W j)) := by
  rw [val_main_v17_apply, val_main_v7_apply]
  have hi : idx_main_v7 (idx_main_v17 (ix2 r j)) = ix1 j :=
    funext fun a => Fin.ext (by match a with | ⟨0, _⟩ => rfl)
  rw [hi, wlen_apply]

/-- The clamp's lower bound, spread over the result, is the word `ε` at every entry. -/
theorem eps_apply (i : S65536x256.Idx) : val_main_v20 (F := Ideal) i = eps := by
  rw [val_main_v20_apply, val_main_cst_1_apply]
  rfl

/-- THE REFERENCE'S RESULT is the clamped cosine of the argument arrays. -/
theorem result_eq : val_main_v24 (F := Ideal) x W b = G x W b := by
  funext i
  obtain ⟨r, j, rfl⟩ : ∃ (r : Fin 65536) (j : Fin 256), i = ix2 r j := ⟨i 0, i 1, eq_ix2 i⟩
  rw [G_ix2, val_main_v24_apply, val_main_v21_apply, val_main_v19_apply, val_main_v15_apply, val_main_v12_apply,
    val_main_v18_apply, dot_apply, bias11_apply, bias14_apply, bias23_apply, xlen_spread_apply, wlen_spread_apply,
    eps_apply]
  rfl

end Cert.Cosine.Ref

end
-- ==== Proof.LibDot.lean ====
/-
  Matrix products with ONE contracted axis and no batch axis, read at an entry at the ideal values, for any dimension
  numbers record whose axis lists are the stated ones (a printed record satisfies each hypothesis by `rfl`).

  With the accumulator the zero constant, the product at entry (a, b) is the sum over the contracted coordinate `c` of
  the left operand's entry times the right operand's entry; which coordinate of each operand `c` runs over is what the
  three forms below differ in: rows by columns (`_10`), the left operand transposed against a right operand contracted
  on its last axis (`_01`), and both operands contracted on their first axis (`_00`).
  Also: a non-contracting axis of either operand reads the output index, and the bf16 zero pattern is the real zero.
-/
import Idealize.ShloMosaic.Lib.ValueIdx
import Idealize.ShloMosaic.PureOps.Ideal.Laws

noncomputable section

open scoped BigOperators

namespace Cert.LibDot

open Idealize.ShloMosaic Idealize.ShloMosaic.ValueIdx

/-- The bf16 pattern of all zero bits is the number zero. -/
theorem ofBits_zero_bf16 : Ideal.ofBits .bf16 0x0000#16 = 0 := by simp [Ideal.ofBits, Ideal.ieee]

section Axes
variable {sl sr so : Shape} (d : DotDims sl sr so)

/-- With no batch axis and one non-contracting axis on the left, that axis of the left operand reads the output's
    first coordinate. -/
theorem lhsIdx_val_non {nl : Fin sl.rank} (hb : d.lhsBatch = []) (hn : d.lhsNonContracting = [nl]) (j : so.Idx)
    (k : d.contr.Idx) (h0 : 0 < so.rank) : (d.lhsIdx j k nl).val = (j ⟨0, h0⟩).val := by
  have hnb : nl ∉ d.lhsBatch := by rw [hb]; exact List.not_mem_nil
  have hmem : nl ∈ d.lhsNonContracting := by rw [hn]; exact List.mem_singleton.mpr rfl
  unfold DotDims.lhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn])

/-- With no batch axis and one non-contracting axis on each side, the right operand's non-contracting axis reads the
    output's second coordinate. -/
theorem rhsIdx_val_non {nl : Fin sl.rank} {nr : Fin sr.rank} (hlb : d.lhsBatch = []) (hrb : d.rhsBatch = [])
    (hln : d.lhsNonContracting = [nl]) (hn : d.rhsNonContracting = [nr]) (j : so.Idx)
    (k : d.contr.Idx) (h1 : 1 < so.rank) : (d.rhsIdx j k nr).val = (j ⟨1, h1⟩).val := by
  have hnb : nr ∉ d.rhsBatch := by rw [hrb]; exact List.not_mem_nil
  have hmem : nr ∈ d.rhsNonContracting := by rw [hn]; exact List.mem_singleton.mpr rfl
  unfold DotDims.rhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hlb, hln, hn])

end Axes

/-- Rows by columns: an `M × K` by a `K × N` operand, the left contracted on its last axis and the right on its
    first. -/
theorem matmul_10_zero_apply {M K N : Nat} {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (A : FVec Ideal ⟨2, ![M, K]⟩ φ₁) (B : FVec Ideal ⟨2, ![K, N]⟩ φ₂)
    (a : Fin M) (b : Fin N) :
    matmul (F := Ideal) d prec A B (constant ⟨2, ![M, N]⟩ .f32 0x00000000#32) (ix2 a b)
      = ∑ c : Fin K, A (ix2 a c) * B (ix2 c b) := by
  have hr : d.contr.rank = 1 := by rw [d.rank_contr, hlc]; rfl
  have hs : d.contr.size ⟨0, by omega⟩ = K := by
    rw [d.size_contr 0 (by rw [hlc]; exact Nat.one_pos)]; simp [hlc]
  show FloatOps.matmul _ prec A B _ (ix2 a b) = _
  rw [Ideal.matmul_constant_zero_apply, ← Equiv.sum_comp (contrEquiv1 d K hr hs).symm]
  refine Finset.sum_congr rfl fun c _ => ?_
  have c2 := contrEquiv1_symm_val d K hr hs c
  have l0 := lhsIdx_val_non d hlb hln (ix2 a b) ((contrEquiv1 d K hr hs).symm c) Nat.zero_lt_two
  have l1 := (d.lhsIdx_val_of_single hlc (ix2 a b) ((contrEquiv1 d K hr hs).symm c)).trans c2
  have r0 := (d.rhsIdx_val_of_single hrc (ix2 a b) ((contrEquiv1 d K hr hs).symm c)).trans c2
  have r1 := rhsIdx_val_non d hlb hrb hln hrn (ix2 a b) ((contrEquiv1 d K hr hs).symm c) Nat.one_lt_two
  have l2 : d.lhsIdx (ix2 a b) ((contrEquiv1 d K hr hs).symm c) = ix2 a c := by
    funext ax; apply Fin.ext
    match ax with
    | ⟨0, _⟩ => exact l0
    | ⟨1, _⟩ => exact l1
  have r2 : d.rhsIdx (ix2 a b) ((contrEquiv1 d K hr hs).symm c) = ix2 c b := by
    funext ax; apply Fin.ext
    match ax with
    | ⟨0, _⟩ => exact r0
    | ⟨1, _⟩ => exact r1
  rw [l2, r2]

/-- A `K × M` left operand contracted on its first axis against an `N × K` right operand contracted on its last. -/
theorem matmul_01_zero_apply {M K N : Nat} {φ₁ φ₂ : FTy} (d : DotDims ⟨2, ![K, M]⟩ ⟨2, ![N, K]⟩ ⟨2, ![M, N]⟩)
    (hlc : d.lhsContracting = [0]) (hrc : d.rhsContracting = [1]) (hln : d.lhsNonContracting = [1])
    (hrn : d.rhsNonContracting = [0]) (hlb : d.lhsBatch = []) (hrb : d.rhsBatch = [])
    (prec : Option ContractPrecision) (A : FVec Ideal ⟨2, ![K, M]⟩ φ₁) (B : FVec Ideal ⟨2, ![N, K]⟩ φ₂)
    (a : Fin M) (b : Fin N) :
    matmul (F := Ideal) d prec A B (constant ⟨2, ![M, N]⟩ .f32 0x00000000#32) (ix2 a b)
      = ∑ c : Fin K, A (ix2 c a) * B (ix2 b c) := by
  have hr : d.contr.rank = 1 := by rw [d.rank_contr, hlc]; rfl
  have hs : d.contr.size ⟨0, by omega⟩ = K := by
    rw [d.size_contr 0 (by rw [hlc]; exact Nat.one_pos)]; simp [hlc]
  show FloatOps.matmul _ prec A B _ (ix2 a b) = _
  rw [Ideal.matmul_constant_zero_apply, ← Equiv.sum_comp (contrEquiv1 d K hr hs).symm]
  refine Finset.sum_congr rfl fun c _ => ?_
  have c2 := contrEquiv1_symm_val d K hr hs c
  have l1 := lhsIdx_val_non d hlb hln (ix2 a b) ((contrEquiv1 d K hr hs).symm c) Nat.zero_lt_two
  have l0 := (d.lhsIdx_val_of_single hlc (ix2 a b) ((contrEquiv1 d K hr hs).symm c)).trans c2
  have r1 := (d.rhsIdx_val_of_single hrc (ix2 a b) ((contrEquiv1 d K hr hs).symm c)).trans c2
  have r0 := rhsIdx_val_non d hlb hrb hln hrn (ix2 a b) ((contrEquiv1 d K hr hs).symm c) Nat.one_lt_two
  have l2 : d.lhsIdx (ix2 a b) ((contrEquiv1 d K hr hs).symm c) = ix2 c a := by
    funext ax; apply Fin.ext
    match ax with
    | ⟨0, _⟩ => exact l0
    | ⟨1, _⟩ => exact l1
  have r2 : d.rhsIdx (ix2 a b) ((contrEquiv1 d K hr hs).symm c) = ix2 b c := by
    funext ax; apply Fin.ext
    match ax with
    | ⟨0, _⟩ => exact r0
    | ⟨1, _⟩ => exact r1
  rw [l2, r2]

/-- Both operands contracted on their first axis: a `K × M` by a `K × N` operand. -/
theorem matmul_00_zero_apply {M K N : Nat} {φ₁ φ₂ : FTy} (d : DotDims ⟨2, ![K, M]⟩ ⟨2, ![K, N]⟩ ⟨2, ![M, N]⟩)
    (hlc : d.lhsContracting = [0]) (hrc : d.rhsContracting = [0]) (hln : d.lhsNonContracting = [1])
    (hrn : d.rhsNonContracting = [1]) (hlb : d.lhsBatch = []) (hrb : d.rhsBatch = [])
    (prec : Option ContractPrecision) (A : FVec Ideal ⟨2, ![K, M]⟩ φ₁) (B : FVec Ideal ⟨2, ![K, N]⟩ φ₂)
    (a : Fin M) (b : Fin N) :
    matmul (F := Ideal) d prec A B (constant ⟨2, ![M, N]⟩ .f32 0x00000000#32) (ix2 a b)
      = ∑ c : Fin K, A (ix2 c a) * B (ix2 c b) := by
  have hr : d.contr.rank = 1 := by rw [d.rank_contr, hlc]; rfl
  have hs : d.contr.size ⟨0, by omega⟩ = K := by
    rw [d.size_contr 0 (by rw [hlc]; exact Nat.one_pos)]; simp [hlc]
  show FloatOps.matmul _ prec A B _ (ix2 a b) = _
  rw [Ideal.matmul_constant_zero_apply, ← Equiv.sum_comp (contrEquiv1 d K hr hs).symm]
  refine Finset.sum_congr rfl fun c _ => ?_
  have c2 := contrEquiv1_symm_val d K hr hs c
  have l1 := lhsIdx_val_non d hlb hln (ix2 a b) ((contrEquiv1 d K hr hs).symm c) Nat.zero_lt_two
  have l0 := (d.lhsIdx_val_of_single hlc (ix2 a b) ((contrEquiv1 d K hr hs).symm c)).trans c2
  have r0 := (d.rhsIdx_val_of_single hrc (ix2 a b) ((contrEquiv1 d K hr hs).symm c)).trans c2
  have r1 := rhsIdx_val_non d hlb hrb hln hrn (ix2 a b) ((contrEquiv1 d K hr hs).symm c) Nat.one_lt_two
  have l2 : d.lhsIdx (ix2 a b) ((contrEquiv1 d K hr hs).symm c) = ix2 c a := by
    funext ax; apply Fin.ext
    match ax with
    | ⟨0, _⟩ => exact l0
    | ⟨1, _⟩ => exact l1
  have r2 : d.rhsIdx (ix2 a b) ((contrEquiv1 d K hr hs).symm c) = ix2 c b := by
    funext ax; apply Fin.ext
    match ax with
    | ⟨0, _⟩ => exact r0
    | ⟨1, _⟩ => exact r1
  rw [l2, r2]

end Cert.LibDot

end
-- ==== Proof.LibDotRows.lean ====
/-
  The matrix product of the ROWS of two arrays, read at an entry at the ideal values.

  An `M × K` left operand and an `N × K` right operand, each contracted on its LAST axis, with no batch axis and the
  zero accumulator: entry `(a, b)` of the product is the inner product of row `a` of the left operand with row `b` of
  the right one, `Σ_c A(a, c) · B(b, c)` — the product `A · Bᵀ` without the transpose ever being formed. It holds for any
  dimension numbers record whose axis lists are the stated ones (a printed record satisfies each hypothesis by `rfl`).
-/
import Idealize.ShloMosaic.Lib.ValueIdx
import Idealize.ShloMosaic.PureOps.Ideal.Laws
import proofs.«142080_j29291676959207_1_alg».proof.Proof.LibDot

noncomputable section

open scoped BigOperators

namespace Cert.LibDotRows

open Idealize.ShloMosaic Idealize.ShloMosaic.ValueIdx

/-- Rows by rows: an `M × K` by an `N × K` operand, both contracted on their last axis. The contracted coordinate `c`
    is the second coordinate of both operands; the first coordinate of the left operand is the output's row and the
    first coordinate of the right operand is the output's column. -/
theorem matmul_11_zero_apply {M K N : Nat} {φ₁ φ₂ : FTy} (d : DotDims ⟨2, ![M, K]⟩ ⟨2, ![N, K]⟩ ⟨2, ![M, N]⟩)
    (hlc : d.lhsContracting = [1]) (hrc : d.rhsContracting = [1]) (hln : d.lhsNonContracting = [0])
    (hrn : d.rhsNonContracting = [0]) (hlb : d.lhsBatch = []) (hrb : d.rhsBatch = [])
    (prec : Option ContractPrecision) (A : FVec Ideal ⟨2, ![M, K]⟩ φ₁) (B : FVec Ideal ⟨2, ![N, K]⟩ φ₂)
    (a : Fin M) (b : Fin N) :
    matmul (F := Ideal) d prec A B (constant ⟨2, ![M, N]⟩ .f32 0x00000000#32) (ix2 a b)
      = ∑ c : Fin K, A (ix2 a c) * B (ix2 b c) := by
  have hr : d.contr.rank = 1 := by rw [d.rank_contr, hlc]; rfl
  have hs : d.contr.size ⟨0, by omega⟩ = K := by
    rw [d.size_contr 0 (by rw [hlc]; exact Nat.one_pos)]; simp [hlc]
  show FloatOps.matmul _ prec A B _ (ix2 a b) = _
  rw [Ideal.matmul_constant_zero_apply, ← Equiv.sum_comp (contrEquiv1 d K hr hs).symm]
  refine Finset.sum_congr rfl fun c _ => ?_
  have c2 := contrEquiv1_symm_val d K hr hs c
  have l0 := Cert.LibDot.lhsIdx_val_non d hlb hln (ix2 a b) ((contrEquiv1 d K hr hs).symm c) Nat.zero_lt_two
  have l1 := (d.lhsIdx_val_of_single hlc (ix2 a b) ((contrEquiv1 d K hr hs).symm c)).trans c2
  have r0 := Cert.LibDot.rhsIdx_val_non d hlb hrb hln hrn (ix2 a b) ((contrEquiv1 d K hr hs).symm c) Nat.one_lt_two
  have r1 := (d.rhsIdx_val_of_single hrc (ix2 a b) ((contrEquiv1 d K hr hs).symm c)).trans c2
  have l2 : d.lhsIdx (ix2 a b) ((contrEquiv1 d K hr hs).symm c) = ix2 a c := by
    funext ax; apply Fin.ext
    match ax with
    | ⟨0, _⟩ => exact l0
    | ⟨1, _⟩ => exact l1
  have r2 : d.rhsIdx (ix2 a b) ((contrEquiv1 d K hr hs).symm c) = ix2 b c := by
    funext ax; apply Fin.ext
    match ax with
    | ⟨0, _⟩ => exact r0
    | ⟨1, _⟩ => exact r1
  rw [l2, r2]

end Cert.LibDotRows

end
-- ==== Proof.LibColumn.lean ====
/-
  A vector kept as a one-column array, read at an entry.

  Summing the rows of an array with the reduced axis kept leaves a column: the vector of row sums recast to shape
  `a × 1`. Entry `(p, 0)` of that column is entry `p` of the vector, and spreading the column along the rows of an
  `a × b` array puts the column's entry `p` at every entry `(p, c)` of row `p`.
-/
import Idealize.ShloMosaic.Lib.Pipeline.Value
import Idealize.ShloMosaic.Lib.ValueIdx

noncomputable section

namespace Cert.LibColumn

open Idealize.ShloMosaic Idealize.ShloMosaic.ValueIdx

variable {α : Type}

/-- A vector of `a` entries recast as an `a × 1` column: row `p` of the column holds entry `p` of the vector
    (both sit at position `p` of the row-major order). -/
theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `a × 1` column spread along the rows of an `a × b` array: every entry of row `p` is the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn

end
-- ==== Proof.LibRowSum.lean ====
/-
  The sum of each row of a two-axis array, read at a row, at the ideal values.

  Reducing an `R × K` array by addition over its last axis leaves a vector of `R` numbers; with the accumulator the
  neutral zero, entry `p` of that vector is the plain sum `Σ_k v(p, k)` over the row's coordinates. The index of the
  source over result index `p` with `k` put on the reduced axis is `(p, k)`.
-/
import Idealize.ShloMosaic.Lib.ValueIdx
import Idealize.ShloMosaic.PureOps.Ideal.Laws

noncomputable section

open scoped BigOperators

namespace Cert.LibRowSum

open Idealize.ShloMosaic Idealize.ShloMosaic.ValueIdx

/-- Over result index `p`, the source index with coordinate `k` on the reduced last axis is `(p, k)`. -/
theorem lift_last {R K : ℕ} (h : (⟨2, ![R, K]⟩ : Shape).Reduces [(1 : Fin 2)] ⟨1, ![R]⟩) (p : Fin R) (k : Fin K) :
    h.lift (ix1 p) k = ix2 p k := by
  funext c; apply Fin.ext
  match c with
  | ⟨0, _⟩ => rfl
  | ⟨1, _⟩ => rfl

/-- A sum over the last axis of an `R × K` array from the neutral accumulator, at row `p`: `Σ_k v(p, k)`. -/
theorem rowSum_apply {R K : ℕ} {φ : FTy} (v : FVec Ideal ⟨2, ![R, K]⟩ φ) (acc : BitVec φ.bits)
    (h : (⟨2, ![R, K]⟩ : Shape).Reduces [(1 : Fin 2)] ⟨1, ![R]⟩) (hφ : FKind.Formats φ)
    (hacc : acc = FKind.add.neutral φ hφ) (p : Fin R) :
    multiReduction .add [(1 : Fin 2)] ⟨1, ![R]⟩ v acc h hφ hacc (ix1 p) = ∑ k : Fin K, v (ix2 p k) := by
  refine (Ideal.multiReduction_add_single v acc h hφ hacc (ix1 p)).trans ?_
  show ∑ k : Fin K, v (h.lift (ix1 p) k) = _
  exact Finset.sum_congr rfl fun k _ => congrArg v (lift_last h p k)

end Cert.LibRowSum

end
-- ==== Proof.KernelPayload.lean ====
/-
  What the kernel's body stores, read at one entry of its block.

  The body works on a block of 2048 rows of `x`, the whole weight matrix and the bias as a one-row array. At entry
  `(p, q)` of the block it stores the clamped cosine `Cosine.cell` of row `p` of the block and row `q` of the weights,
  with bias `b(q)`:
  * the product of the two operands' rows, contracted on the last axis of both into a zero accumulator, is the inner
    product of row `p` with row `q` (rounding the operands to a shorter format changes nothing at the ideal values);
  * the row lengths are square roots of sums over the last axis; the block's lengths are kept as a column and spread
    along the rows, the weights' lengths are recast as a one-row array and spread down the columns;
  * the bias row is spread down the columns, so at `(p, q)` it is its entry `q`;
  * the remaining operations act entry by entry.
-/
import proofs.«142080_j29291676959207_1_alg».proof.Proof.Gen.KernelIdeal.Skeleton
import proofs.«142080_j29291676959207_1_alg».proof.Proof.Spec
import proofs.«142080_j29291676959207_1_alg».proof.Proof.LibDotRows
import proofs.«142080_j29291676959207_1_alg».proof.Proof.LibColumn
import proofs.«142080_j29291676959207_1_alg».proof.Proof.LibRowSum
import Idealize.ShloMosaic.Lib.Pipeline.Value
import Idealize.ShloMosaic.Lib.ValueLayout

noncomputable section

open scoped BigOperators

namespace Cert.Cosine.Kern

open Cert.KernelIdeal Cert.KernelIdeal.Gen
open Idealize.ShloMosaic Idealize.ShloMosaic.ValueIdx

variable (xb : FVec Ideal S2048x256 .f32) (Wb : FVec Ideal S256x256 .f32) (bb : FVec Ideal S1x256 .f32)

/-- The bias row spread down the columns of the block: at `(p, q)` its entry `q`. -/
theorem bias_apply (p : Fin 2048) (q : Fin 256) :
    broadcastTo S2048x256 (shapeCast S1x256 bb shapeCasts_S1x256_S1x256) broadcasts_S1x256_S2048x256 (ix2 p q)
      = bb (ix2 (0 : Fin 1) q) := by
  rw [shapeCast_self]
  exact broadcastTo_1b_ab_apply bb broadcasts_S1x256_S2048x256 p q

/-- The product of the rounded operands, contracted on the last axis of both: the inner product of rows. -/
theorem prod_apply (p : Fin 2048) (q : Fin 256) :
    matmul (F := Ideal) dot_S2048x256_S256x256_S2048x256_1_1_0_0_n_n none (truncf .bf16 xb bitsLt_bf16_f32)
        (truncf .bf16 Wb bitsLt_bf16_f32) (constant S2048x256 .f32 0x00000000#32) (ix2 p q)
      = dotRow (row xb p) (row Wb q) :=
  Cert.LibDotRows.matmul_11_zero_apply dot_S2048x256_S256x256_S2048x256_1_1_0_0_n_n rfl rfl rfl rfl rfl rfl none
    (truncf .bf16 xb bitsLt_bf16_f32) (truncf .bf16 Wb bitsLt_bf16_f32) p q

/-- The block's row lengths, kept as a column and spread along the rows: at `(p, q)` the length of row `p`. -/
theorem xlen_apply (p : Fin 2048) (q : Fin 256) :
    broadcastTo S2048x256
        (sqrt (shapeCast S2048x1
          (multiReduction .add [1] S2048 (mulf xb xb) 0x00000000#32 reduces_S2048x256_S2048 (.inl rfl) rfl)
          shapeCasts_S2048_S2048x1))
        broadcasts_S2048x1_S2048x256 (ix2 p q)
      = Ideal.sqrt (dotRow (row xb p) (row xb p)) := by
  refine (Cert.LibColumn.broadcastTo_a1_ab_apply _ broadcasts_S2048x1_S2048x256 p q).trans ?_
  show Ideal.sqrt (shapeCast S2048x1 _ shapeCasts_S2048_S2048x1 (ix2 p (0 : Fin 1))) = _
  refine congrArg Ideal.sqrt ?_
  refine (Cert.LibColumn.shapeCast_a_a1_apply _ shapeCasts_S2048_S2048x1 p 0).trans ?_
  exact Cert.LibRowSum.rowSum_apply (mulf xb xb) 0x00000000#32 reduces_S2048x256_S2048 (.inl rfl) rfl p

/-- The weights' row lengths, recast as a one-row array and spread down the columns: at `(p, q)` the length of row `q`. -/
theorem wlen_apply (p : Fin 2048) (q : Fin 256) :
    broadcastTo S2048x256
        (shapeCast S1x256
          (sqrt (multiReduction .add [1] S256 (mulf Wb Wb) 0x00000000#32 reduces_S256x256_S256 (.inl rfl) rfl))
          shapeCasts_S256_S1x256)
        broadcasts_S1x256_S2048x256 (ix2 p q)
      = Ideal.sqrt (dotRow (row Wb q) (row Wb q)) := by
  refine (broadcastTo_1b_ab_apply _ broadcasts_S1x256_S2048x256 p q).trans ?_
  refine (shapeCast_a_1a_apply _ shapeCasts_S256_S1x256 (0 : Fin 1) q).trans ?_
  show Ideal.sqrt (multiReduction .add [1] S256 (mulf Wb Wb) 0x00000000#32 reduces_S256x256_S256 (.inl rfl) rfl (ix1 q)) = _
  refine congrArg Ideal.sqrt ?_
  exact Cert.LibRowSum.rowSum_apply (mulf Wb Wb) 0x00000000#32 reduces_S256x256_S256 (.inl rfl) rfl q

/-- THE STORED VALUE at entry `(p, q)` of the block is the clamped cosine of row `p` of the block and row `q` of the
    weights, with the bias row's entry `q`. -/
theorem payload_apply (p : Fin 2048) (q : Fin 256) :
    k0_pay1 (F := Ideal) xb Wb bb (ix2 p q) = cell (row xb p) (row Wb q) (bb (ix2 (0 : Fin 1) q)) := by
  unfold cell
  rw [← prod_apply xb Wb p q, ← xlen_apply xb p q, ← wlen_apply Wb p q, ← bias_apply bb p q]
  rfl

end Cert.Cosine.Kern

end
-- ==== Proof.KernelValue.lean ====
/-
  The kernel's result array is the clamped cosine `Cosine.G` of its arguments.

  The grid has 32 points. Point `t` works on rows `2048·t … 2048·t + 2047` of `x` (block `t` of 2048 rows, all 256
  columns), on the whole weight matrix and the whole bias row at every point, and writes back rows
  `2048·t … 2048·t + 2047` of the result. So entry `(p, q)` of the block written at point `t` is entry
  `(2048·t + p, q)` of the result, and it is the clamped cosine of row `2048·t + p` of `x` with row `q` of the weights at
  bias `b(q)`: what `G` holds there. The bias reaches the kernel recast as a one-row array, whose entry `(0, q)` is
  `b(q)`. Every row `r` of the result lies in the block of point `r / 2048`, so the 32 blocks cover the array.
-/
import proofs.«142080_j29291676959207_1_alg».proof.Proof.Gen.KernelIdeal.Value
import proofs.«142080_j29291676959207_1_alg».proof.Proof.KernelPayload
import Idealize.ShloMosaic.Lib.StableHlo.Run
import Idealize.ShloMosaic.Lib.Pipeline.Value
import Idealize.ShloMosaic.Lib.ValueLayout

noncomputable section

namespace Cert.Cosine.KernValue

open Cert.KernelIdeal Cert.KernelIdeal.Gen Idealize.ShloMosaic Idealize.ShloMosaic.TcCoe Idealize.SL.Sem
open Idealize.ShloMosaic.Pipeline (Dat)
open Idealize.ShloMosaic.ValueIdx

variable (m : (ℓ : Loc nD τ sig) → Buf (Elt Ideal) ℓ) (ρ : Dev nD → PrngReg)

/-- The three argument arrays on core `c`, as launched. -/
abbrev xarr (c : Dev nD) : FVec Ideal S65536x256 .f32 := m ((c : Thread nD τ).loc main_arg0)
abbrev warr (c : Dev nD) : FVec Ideal S256x256 .f32 := m ((c : Thread nD τ).loc main_arg1)
abbrev barr (c : Dev nD) : FVec Ideal S256 .f32 := m ((c : Thread nD τ).loc main_arg2)

theorem origin : (![0, 0] : Fin 2 → Nat) = fun _ => 0 := funext fun a => by fin_cases a <;> rfl

/-- Which block each window holds at point `t`: block `t` of the rows of `x` and of the result, the one block of the
    weights and of the bias row (decided over the 32 points). -/
theorem block_index : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The bias row as the region finds it: the bias recast as a `1 × 256` array, so its entry `(0, q)` is `b(q)`. -/
theorem bias_row (c : Dev nD) (q : Fin 256) :
    (V m c main_v0 : S1x256.Idx → Ideal .f32) (ix2 (0 : Fin 1) q) = barr m c (ix1 q) := by
  have e : (V m c main_v0 : S1x256.Idx → Ideal .f32) = shapeCast S1x256 (barr m c) shapeCasts_S256_S1x256 := by
    dsimp only [V, hostOps0]; after_results; rfl
  rw [e]
  exact shapeCast_a_1a_apply _ shapeCasts_S256_S1x256 (0 : Fin 1) q

/-- Entry `(p, q)` of a block against the entry `(r, j)` of the whole result it lands on: when the block's row `p` is
    row `r` of `X`, the weights' row `q` is row `j` of `Wt` and the bias row's entry `q` is `B(j)`, the stored value at
    `(p, q)` is `G` at `(r, j)`. -/
theorem block_entry (X : FVec Ideal S65536x256 .f32) (Wt : FVec Ideal S256x256 .f32) (B : FVec Ideal S256 .f32)
    (xb : FVec Ideal S2048x256 .f32) (wb : FVec Ideal S256x256 .f32) (bb : FVec Ideal S1x256 .f32)
    (p : Fin 2048) (q : Fin 256) (r : Fin 65536) (j : Fin 256)
    (hx : ∀ k : Fin 256, xb (ix2 p k) = X (ix2 r k))
    (hw : ∀ k : Fin 256, wb (ix2 q k) = Wt (ix2 j k))
    (hb : bb (ix2 (0 : Fin 1) q) = B (ix1 j)) :
    k0_pay1 (F := Ideal) xb wb bb (ix2 p q) = G X Wt B (ix2 r j) := by
  have h1 : row xb p = row X r := funext hx
  have h2 : row wb q = row Wt j := funext hw
  rw [Cert.Cosine.Kern.payload_apply, G_ix2, h1, h2, hb]

/-- WHAT POINT `t` WRITES BACK is block `t` of `G` of the argument arrays. -/
theorem flushed_eq (c : Dev nD) (t : Fin cfg0.N) :
    (dats m 0 c).flushed 3 t
      = ((cfg0.win 3).blk t).view.read (Elt Ideal) (G (xarr m c) (warr m c) (barr m c)) := by
  rw [Cert.KernelIdeal.Value.flushed3]
  unfold out0_3
  rw [View.canon_unit_zero origin]
  simp only [View.ld_unit_zero (S := S2048x256) origin, View.ld_unit_zero (S := S256x256) origin,
    View.ld_unit_zero (S := S1x256) origin]
  obtain ⟨e00, e01, e10, e11, e20, e21, e30, e31⟩ := block_index t
  have hN : cfg0.N = 32 := N_0
  have ht : t.val < 32 := by have := t.isLt; omega
  funext y
  show k0_pay1 (F := Ideal) (iblk m c 0 t) (iblk m c 1 t) (iblk m c 2 t) y
    = G (xarr m c) (warr m c) (barr m c) (((cfg0.win 3).blk t).view.emb y)
  -- the entry's two coordinates, and the row of the result it lands on
  have hy0 : (y 0).val < 2048 := (y 0).isLt
  have hy1 : (y 1).val < 256 := (y 1).isLt
  obtain ⟨p, hp⟩ : ∃ p : Fin 2048, p.val = (y 0).val := ⟨⟨(y 0).val, hy0⟩, rfl⟩
  obtain ⟨q, hq⟩ : ∃ q : Fin 256, q.val = (y 1).val := ⟨⟨(y 1).val, hy1⟩, rfl⟩
  obtain ⟨r, hr⟩ : ∃ r : Fin 65536, r.val = t.val * 2048 + p.val := ⟨⟨t.val * 2048 + p.val, by omega⟩, rfl⟩
  have hy : y = ix2 p q := by
    funext a; apply Fin.ext
    match a with
    | ⟨0, _⟩ => exact hp.symm
    | ⟨1, _⟩ => exact hq.symm
  have he : ((cfg0.win 3).blk t).view.emb (ix2 p q) = ix2 r q := by
    funext a; apply Fin.ext
    match a with
    | ⟨0, _⟩ =>
      show win0_3.index t (0 : Fin 2) * 2048 + 1 * p.val = r.val
      omega
    | ⟨1, _⟩ =>
      show win0_3.index t (1 : Fin 2) * 256 + 1 * q.val = q.val
      omega
  rw [hy, he]
  refine block_entry (xarr m c) (warr m c) (barr m c) (iblk m c 0 t) (iblk m c 1 t) (iblk m c 2 t) p q r q ?_ ?_ ?_
  · intro k
    show V m c main_arg0 (((cfg0.win 0).blk t).view.emb (ix2 p k)) = xarr m c (ix2 r k)
    rw [V_main_arg0]
    refine congrArg (xarr m c) ?_
    funext a; apply Fin.ext
    match a with
    | ⟨0, _⟩ =>
      show win0_0.index t (0 : Fin 2) * 2048 + 1 * p.val = r.val
      omega
    | ⟨1, _⟩ =>
      show win0_0.index t (1 : Fin 2) * 256 + 1 * k.val = k.val
      omega
  · intro k
    show V m c main_arg1 (((cfg0.win 1).blk t).view.emb (ix2 q k)) = warr m c (ix2 q k)
    rw [V_main_arg1]
    refine congrArg (warr m c) ?_
    funext a; apply Fin.ext
    match a with
    | ⟨0, _⟩ =>
      show win0_1.index t (0 : Fin 2) * 256 + 1 * q.val = q.val
      omega
    | ⟨1, _⟩ =>
      show win0_1.index t (1 : Fin 2) * 256 + 1 * k.val = k.val
      omega
  · show V m c main_v0 (((cfg0.win 2).blk t).view.emb (ix2 (0 : Fin 1) q)) = barr m c (ix1 q)
    have h2 : ((cfg0.win 2).blk t).view.emb (ix2 (0 : Fin 1) q) = ix2 (0 : Fin 1) q := by
      funext a; apply Fin.ext
      match a with
      | ⟨0, _⟩ =>
        show win0_2.index t (0 : Fin 2) * 1 + 1 * 0 = 0
        omega
      | ⟨1, _⟩ =>
        show win0_2.index t (1 : Fin 2) * 256 + 1 * q.val = q.val
        omega
    rw [h2]
    exact bias_row m c q

/-- An index of the result is in point `t`'s block iff each coordinate is in the block's range on its axis. -/
theorem mem_blk (t : Fin cfg0.N) (i : S65536x256.Idx) :
    i ∈ ((cfg0.win 3).blk t).view.set ↔
      ∀ a : Fin 2, win0_3.index t a * S2048x256.size a ≤ (i a).val
        ∧ (i a).val < win0_3.index t a * S2048x256.size a + S2048x256.size a := by
  show i ∈ ((View.whole main_v1).slice (win0_3.rect t)).set ↔ _
  rw [View.set_slice_whole, Rect.mem_set_unit]
  exact Iff.rfl

/-- The blocks cover the result: row `r` lies in the block of point `r / 2048`. -/
theorem covered (i : S65536x256.Idx) :
    ∃ t : Fin cfg0.N, (cfg0.win 3).flush t = true ∧ i ∈ ((cfg0.win 3).blk t).view.set := by
  have hi0 : (i 0).val < 65536 := (i 0).isLt
  have hi1 : (i 1).val < 256 := (i 1).isLt
  have hN : cfg0.N = 32 := N_0
  obtain ⟨t, ht⟩ : ∃ t : Fin cfg0.N, t.val = (i 0).val / 2048 := ⟨⟨(i 0).val / 2048, by omega⟩, rfl⟩
  obtain ⟨-, -, -, -, -, -, e30, e31⟩ := block_index t
  refine ⟨t, flush0_3 t, ?_⟩
  rw [mem_blk]
  intro a
  match a with
  | ⟨0, _⟩ =>
    show win0_3.index t (0 : Fin 2) * 2048 ≤ (i 0).val ∧ (i 0).val < win0_3.index t (0 : Fin 2) * 2048 + 2048
    omega
  | ⟨1, _⟩ =>
    show win0_3.index t (1 : Fin 2) * 256 ≤ (i 1).val ∧ (i 1).val < win0_3.index t (1 : Fin 2) * 256 + 256
    omega

/-- THE RESULT ARRAY after the run is `G` of the argument arrays. -/
theorem final (c : Dev nD) : (dats m 0 c).arrAt 3 cfg0.N = G (xarr m c) (warr m c) (barr m c) :=
  (dats m 0 c).arrAt_eq_of_cover 3 (G (xarr m c) (warr m c) (barr m c)) (fun t _ => flushed_eq m c t) covered

/-- The kernel's run re-posted: the result at `G` of the arguments, the arguments unchanged. -/
theorem run : θ_run defs (onTc (τ := τ) (main (F := Ideal))) ⟨m, fun _ => 0, ρ⟩ fun r => ∀ c : Dev nD,
      r.2.mem ((c : Thread nD τ).loc main_v1) = G (xarr m c) (warr m c) (barr m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩)
    (Cert.KernelIdeal.Value.run_blocks m ρ)

end Cert.Cosine.KernValue

end
-- ==== Proof.lean ====
/-
  A cosine-normalised linear layer, tiled over the rows of its input, against its whole-array reference.

  Both programs take `x` (65536 rows of 256 numbers), a weight matrix `W` (256 rows of 256 numbers) and a bias `b`
  (256 numbers), and both compute, at entry `(r, j)`,

      max ( ((⟨x_r, W_j⟩ + b_j) − b_j) / (√⟨x_r, x_r⟩ · √⟨W_j, W_j⟩) , ε ) + b_j ,

  the cosine of the angle between row `r` of `x` and row `j` of `W`, clamped below at `ε` (the single precision number
  nearest 1e-10, the same word in both programs), the bias taken off before the division and put back after the clamp.
  The kernel does it 2048 rows at a time: it forms the inner products as a matrix product of the rows of its two
  operands (rounded to a shorter format first, which is the identity on the extended reals), the lengths as square roots
  of sums over the last axis, and spreads the bias row and the two families of lengths over the block. The reference
  multiplies `x` by the transposed weights and spreads the same three families over the whole array. Read at an entry
  the two are the same expression, term by term: the sums run over the same coordinate and start from zero, and no
  algebraic law beyond reindexing a sum is used, so nothing is asked of the inputs — the precondition that they are
  finite is never opened.

  The three frames are the generated ones (the reference's is its run with the result dropped); the idealization
  rewrote nothing, so there is nothing to preserve; the value claim sets the kernel's run (`Cosine.KernValue.run`) beside
  the reference's run read at `Cosine.G` (`Cosine.Ref.result_eq`).
-/
import proofs.«142080_j29291676959207_1_alg».proof.Defs
import proofs.«142080_j29291676959207_1_alg».proof.Proof.Gen.Kernel
import proofs.«142080_j29291676959207_1_alg».proof.Proof.Gen.Kernel.Skeleton
import proofs.«142080_j29291676959207_1_alg».proof.Proof.Gen.Kernel.Launch
import proofs.«142080_j29291676959207_1_alg».proof.Proof.Gen.Kernel.Points
import proofs.«142080_j29291676959207_1_alg».proof.Proof.Gen.Kernel.Frame
import proofs.«142080_j29291676959207_1_alg».proof.Proof.Gen.KernelIdeal
import proofs.«142080_j29291676959207_1_alg».proof.Proof.Gen.KernelIdeal.Skeleton
import proofs.«142080_j29291676959207_1_alg».proof.Proof.Gen.KernelIdeal.Launch
import proofs.«142080_j29291676959207_1_alg».proof.Proof.Gen.KernelIdeal.Points
import proofs.«142080_j29291676959207_1_alg».proof.Proof.Gen.KernelIdeal.Frame
import proofs.«142080_j29291676959207_1_alg».proof.Proof.Gen.ReferenceIdeal
import proofs.«142080_j29291676959207_1_alg».proof.Proof.Gen.Pre_finite_inputs
import proofs.«142080_j29291676959207_1_alg».proof.Proof.Gen.KernelIdeal.Value
import proofs.«142080_j29291676959207_1_alg».proof.Proof.Gen.ReferenceIdeal.Run
import proofs.«142080_j29291676959207_1_alg».proof.Proof.Gen.ReferenceIdeal.Read
import proofs.«142080_j29291676959207_1_alg».proof.Proof.Spec
import proofs.«142080_j29291676959207_1_alg».proof.Proof.RefValue
import proofs.«142080_j29291676959207_1_alg».proof.Proof.KernelValue
import Idealize.ShloMosaic.Adequacy
import Idealize.ShloMosaic.Init

noncomputable section

namespace Cert.Proof

open Idealize.ShloMosaic Idealize.ShloMosaic.TcCoe Idealize.SL.Sem

/-- The kernel as printed terminates without a fault and leaves its arguments as they were. -/
theorem frame_kernel : Cert.frame_Kernel := fun m ρ _ => Cert.Kernel.Gen.frame m ρ

/-- So does its reading on the extended reals. -/
theorem frame_kernelIdeal : Cert.frame_KernelIdeal := fun m ρ _ => Cert.KernelIdeal.Gen.frame m ρ

/-- The reference is a straight line of whole-array operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on `x`, `W` and `b`, both programs end with the clamped cosine array `Cosine.G` of those
    arguments: the kernel block by block, the reference as one composed term read at an entry. -/
theorem algebraic : Cert.algebraic_KernelIdeal_ReferenceIdeal := by
  intro m ρ m' ρ' _ hagree
  refine ⟨fun c => Cert.Cosine.G (Cert.Cosine.KernValue.xarr m c) (Cert.Cosine.KernValue.warr m c)
    (Cert.Cosine.KernValue.barr m c), Cert.Cosine.KernValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v24_eq, Cert.Cosine.Ref.result_eq, (hagree c).1, (hagree c).2.1,
    (hagree c).2.2]

theorem claim : Cert.Claim := ⟨Cert.Kernel.Gen.facts, Cert.KernelIdeal.Gen.facts, Cert.ReferenceIdeal.Gen.facts,
  Cert.Pre_finite_inputs.Gen.facts, frame_kernel, frame_kernelIdeal, frame_referenceIdeal, trivial, algebraic⟩

end Cert.Proof

end
